-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S8x8192x3 : Shape := ⟨3, ![8, 8192, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x8192x3 : S_.BroadcastsInDim S8x8192x3 (![] : Fin 0 → Fin S8x8192x3.rank)
  reducesTo_S8x8192x3_S_d0_1_2 : S8x8192x3.ReducesTo [0, 1, 2] S_

variable [Facts]

def fn {F : FTy → Type} [FloatOps F] (main_arg0 : FVec F S8x2048x3 .f32) (main_arg1 : FVec F S8x8192x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x8192x3 .f32 := Host.absf main_arg1
  let main_cst_0 : FVec F S_ .f32 := constant S_ .f32 0x7F800000#32
  let main_v5 : FVec F S8x8192x3 .f32 := broadcastInDim S8x8192x3 ![] bcast_S_S8x8192x3 main_cst_0
  let main_v6 : IVec S8x8192x3 1 := cmpf .olt main_v4 main_v5
  let main_c_1 : IVec S_ 1 := constantI S_ 1 1#1
  let main_v7 : IVec S_ 1 := (fun x v => Host.reduce IntOp.andi x v reducesTo_S8x8192x3_S_d0_1_2 h_S_) main_v6 main_c_1
  let main_v8 : IVec S_ 1 := andi main_v3 main_v7
  main_v8
-- ==== Kernel.lean ====
abbrev S8x2048x3 : Shape := ⟨3, ![8, 2048, 3]⟩
abbrev S8x8192x3 : Shape := ⟨3, ![8, 8192, 3]⟩
abbrev S8x2048x8192 : Shape := ⟨3, ![8, 2048, 8192]⟩
abbrev S1x2048x3 : Shape := ⟨3, ![1, 2048, 3]⟩
abbrev S1x512x3 : Shape := ⟨3, ![1, 512, 3]⟩
abbrev S1x2048x512 : Shape := ⟨3, ![1, 2048, 512]⟩
abbrev S2048x3 : Shape := ⟨2, ![2048, 3]⟩
abbrev S512x3 : Shape := ⟨2, ![512, 3]⟩
abbrev S3x512 : Shape := ⟨2, ![3, 512]⟩
abbrev S2048x1 : Shape := ⟨2, ![2048, 1]⟩
abbrev S1x512 : Shape := ⟨2, ![1, 512]⟩
abbrev S2048x512 : Shape := ⟨2, ![2048, 512]⟩
abbrev S8x2048x64 : Shape := ⟨3, ![8, 2048, 64]⟩
abbrev S8x2048x1 : Shape := ⟨3, ![8, 2048, 1]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S8x2048x3, .f32⟩
  | .hbm, ⟨1, _⟩ => ⟨S8x8192x3, .f32⟩
  | .hbm, ⟨2, _⟩ => ⟨S8x2048x8192, .i32⟩
  | .hbm, ⟨3, _⟩ => ⟨S8x2048x8192, .i32⟩
  | .hbm, ⟨4, _⟩ => ⟨S8x2048x64, .i32⟩
  | .hbm, ⟨5, _⟩ => ⟨S8x2048x1, .i32⟩
  | .hbm, ⟨6, _⟩ => ⟨S_, .i32⟩
  | .hbm, ⟨7, _⟩ => ⟨S8x2048x64, .i32⟩
  | .hbm, ⟨8, _⟩ => ⟨S8x2048x64, .i1⟩
  | .hbm, ⟨9, _⟩ => ⟨S8x2048x64, .i32⟩
  | .hbm, ⟨10, _⟩ => ⟨S8x2048x64, .i32⟩
  | .local _ .vmem, ⟨0, _⟩ => ⟨S1x2048x3, .f32⟩
  | .local _ .vmem, ⟨1, _⟩ => ⟨S1x2048x3, .f32⟩
  | .local _ .vmem, ⟨2, _⟩ => ⟨S1x512x3, .f32⟩
  | .local _ .vmem, ⟨3, _⟩ => ⟨S1x512x3, .f32⟩
  | .local _ .vmem, ⟨4, _⟩ => ⟨S1x2048x512, .i32⟩
  | .local _ .vmem, ⟨5, _⟩ => ⟨S1x2048x512, .i32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_call1_v0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  transposes_S512x3_p1_0_S3x512 : S512x3.Transposes [1, 0] S3x512
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  slices_S3x512_o0_0_S1x512 : S3x512.Slices ![0, 0] S1x512
  slices_S3x512_o1_0_S1x512 : S3x512.Slices ![1, 0] S1x512
  slices_S3x512_o2_0_S1x512 : S3x512.Slices ![2, 0] S1x512
  broadcasts_S2048x1_S2048x512 : S2048x1.Broadcasts S2048x512
  broadcasts_S1x512_S2048x512 : S1x512.Broadcasts S2048x512
  iota_S2048x512_d1_w32 : S2048x512.Iotas .tc 32 [1]
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  slices_S8x2048x8192_S8x2048x64_0_0_0 : S8x2048x8192.Slices ![0, 0, 0] S8x2048x64
  slices_S8x2048x64_S8x2048x1_0_0_0 : S8x2048x64.Slices ![0, 0, 0] S8x2048x1
  bcast_S_S8x2048x64 : S_.BroadcastsInDim S8x2048x64 (![] : Fin 0 → Fin S8x2048x64.rank)
  bcast_S8x2048x1_S8x2048x64_0_1_2 : S8x2048x1.BroadcastsInDim S8x2048x64 (![0, 1, 2] : Fin 3 → Fin S8x2048x64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S8x2048x3.size a
  hwx0_0 : ∀ i : grid0.Coords, EltTy.bits .f32 = 32 ∨ (Rect.block (s := S8x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S8x8192x3.size a
  hwx0_1 : ∀ i : grid0.Coords, EltTy.bits .f32 = 32 ∨ (Rect.block (s := S8x8192x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x8192.size a
  hwx0_2 : ∀ i : grid0.Coords, EltTy.bits .i32 = 32 ∨ (Rect.block (s := S8x2048x8192) S1x2048x512.size (cc0_transform_2 i) (hinb0_2 i)).WholeWords (EltTy.packing .i32)

variable [Facts₀]

def comparator_i32_d2 : BitVec 32 → BitVec 32 → BitVec 1 :=
  fun l r =>
    let v1 := IntOp.cmpi .slt l r
    v1

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x8192x3 : Shape := ⟨3, ![8, 8192, 3]⟩
abbrev S8x2048x8192 : Shape := ⟨3, ![8, 2048, 8192]⟩
abbrev S_ : Shape := ⟨0, ![]⟩
abbrev S8x2048 : Shape := ⟨2, ![8, 2048]⟩
abbrev S8x2048x1 : Shape := ⟨3, ![8, 2048, 1]⟩
abbrev S8x8192 : Shape := ⟨2, ![8, 8192]⟩
abbrev S8x1x8192 : Shape := ⟨3, ![8, 1, 8192]⟩
abbrev S8192 : Shape := ⟨1, ![8192]⟩
abbrev S1x1x8192 : Shape := ⟨3, ![1, 1, 8192]⟩
abbrev S8x2048x64 : Shape := ⟨3, ![8, 2048, 64]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x8192x3, .f32⟩
  | .hbm, ⟨2, _⟩ => ⟨S8x2048x8192, .f32⟩
  | .hbm, ⟨3, _⟩ => ⟨S_, .f32⟩
  | .hbm, ⟨4, _⟩ => ⟨S8x2048x8192, .f32⟩
  | .hbm, ⟨5, _⟩ => ⟨S8x2048x8192, .f32⟩
  | .hbm, ⟨6, _⟩ => ⟨S8x2048x3, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S8x2048x8192, .f32⟩
  | .hbm, ⟨11, _⟩ => ⟨S8x2048x8192, .f32⟩
  | .hbm, ⟨12, _⟩ => ⟨S8x8192x3, .f32⟩
  | .hbm, ⟨13, _⟩ => ⟨S_, .f32⟩
  | .hbm, ⟨14, _⟩ => ⟨S8x8192, .f32⟩
  | .hbm, ⟨15, _⟩ => ⟨S8x1x8192, .f32⟩
  | .hbm, ⟨16, _⟩ => ⟨S8x2048x8192, .f32⟩
  | .hbm, ⟨17, _⟩ => ⟨S8x2048x8192, .f32⟩
  | .hbm, ⟨18, _⟩ => ⟨S_, .f32⟩
  | .hbm, ⟨19, _⟩ => ⟨S8x2048x8192, .f32⟩
  | .hbm, ⟨20, _⟩ => ⟨S8x2048x8192, .i1⟩
  | .hbm, ⟨21, _⟩ => ⟨S8192, .i32⟩
  | .hbm, ⟨22, _⟩ => ⟨S1x1x8192, .i32⟩
  | .hbm, ⟨23, _⟩ => ⟨S_, .i32⟩
  | .hbm, ⟨24, _⟩ => ⟨S8x2048x8192, .i32⟩
  | .hbm, ⟨25, _⟩ => ⟨S8x2048x8192, .i32⟩
  | .hbm, ⟨26, _⟩ => ⟨S8x2048x8192, .i32⟩
  | .hbm, ⟨27, _⟩ => ⟨S8x2048x8192, .i32⟩
  | .hbm, ⟨28, _⟩ => ⟨S8x2048x64, .i32⟩
  | .hbm, ⟨29, _⟩ => ⟨S8x2048x1, .i32⟩
  | .hbm, ⟨30, _⟩ => ⟨S_, .i32⟩
  | .hbm, ⟨31, _⟩ => ⟨S8x2048x64, .i32⟩
  | .hbm, ⟨32, _⟩ => ⟨S8x2048x64, .i1⟩
  | .hbm, ⟨33, _⟩ => ⟨S8x2048x64, .i32⟩
  | .hbm, ⟨34, _⟩ => ⟨S8x2048x64, .i32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_call2_v0 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S8x2048x8192 : S_.BroadcastsInDim S8x2048x8192 (![] : Fin 0 → Fin S8x2048x8192.rank)
  reducesTo_S8x2048x3_S8x2048_d2 : S8x2048x3.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x8192_0_1_2 : S8x2048x1.BroadcastsInDim S8x2048x8192 (![0, 1, 2] : Fin 3 → Fin S8x2048x8192.rank)
  reducesTo_S8x8192x3_S8x8192_d2 : S8x8192x3.ReducesTo [2] S8x8192
  bcast_S8x8192_S8x1x8192_0_2 : S8x8192.BroadcastsInDim S8x1x8192 (![0, 2] : Fin 2 → Fin S8x1x8192.rank)
  bcast_S8x1x8192_S8x2048x8192_0_1_2 : S8x1x8192.BroadcastsInDim S8x2048x8192 (![0, 1, 2] : Fin 3 → Fin S8x2048x8192.rank)
  bcast_S8192_S1x1x8192_2 : S8192.BroadcastsInDim S1x1x8192 (![2] : Fin 1 → Fin S1x1x8192.rank)
  bcast_S1x1x8192_S8x2048x8192_0_1_2 : S1x1x8192.BroadcastsInDim S8x2048x8192 (![0, 1, 2] : Fin 3 → Fin S8x2048x8192.rank)
  slices_S8x2048x8192_S8x2048x64_0_0_0 : S8x2048x8192.Slices ![0, 0, 0] S8x2048x64
  slices_S8x2048x64_S8x2048x1_0_0_0 : S8x2048x64.Slices ![0, 0, 0] S8x2048x1
  bcast_S_S8x2048x64 : S_.BroadcastsInDim S8x2048x64 (![] : Fin 0 → Fin S8x2048x64.rank)
  bcast_S8x2048x1_S8x2048x64_0_1_2 : S8x2048x1.BroadcastsInDim S8x2048x64 (![0, 1, 2] : Fin 3 → Fin S8x2048x64.rank)
  dot_S8x2048x3_S8x8192x3_S8x2048x8192_2_2_1_1_0_0_wf : DotDims.WF S8x2048x3 S8x8192x3 S8x2048x8192 [2] [2] [1] [1] [0] [0]

variable [Facts₀]

def dot_S8x2048x3_S8x8192x3_S8x2048x8192_2_2_1_1_0_0 : DotDims S8x2048x3 S8x8192x3 S8x2048x8192 where
  lhsContracting := [2]
  rhsContracting := [2]
  lhsNonContracting := [1]
  rhsNonContracting := [1]
  lhsBatch := [0]
  rhsBatch := [0]
  wf := dot_S8x2048x3_S8x8192x3_S8x2048x8192_2_2_1_1_0_0_wf
def comparator_i32_d2 : BitVec 32 → BitVec 32 → BitVec 1 :=
  fun l r =>
    let v1 := IntOp.cmpi .slt l r
    v1

class Facts : Prop extends Facts₀ where

variable [Facts]
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.Candidates.lean ====
/- The candidate array, entry by entry, and what one grid point's block of it is in terms of the point's input blocks.

   For a query point s = (s0, s1, s2) and a cloud point c = (c0, c1, c2) the kernel's squared distance is
   -2 (s0 c0 + s1 c1 + s2 c2) + (s0^2 + s1^2 + s2^2) + (c0^2 + c1^2 + c2^2), every sum nested to the left. The candidate at
   (b, r, n) is the sentinel 8192 where that number exceeds the threshold 0.04 (as the f32 word 0x3D23D70A), and n otherwise.
   A grid point (b, j) computes the entries n = 512 j + q, q < 512, of batch b: its column index is the lane number q plus
   the scalar 512 j, which as 32-bit words is the word of 512 j + q. -/
import proofs.«169816_j37812892074552_1_alg».proof.Proof.Gen.KernelIdeal.Skeleton
import Idealize.ShloMosaic.Lib.Pipeline.Value
import Idealize.ShloMosaic.Lib.ValueIdx
import Idealize.ShloMosaic.Lib.ValueLayout
import proofs.«169816_j37812892074552_1_alg».proof.Proof.LibColumns

noncomputable section

namespace Cert.KernelIdeal.Cand

open Idealize.ShloMosaic Idealize.ShloMosaic.ValueIdx Cert.KernelIdeal Cert.KernelIdeal.Gen Cert.LibColumns

/-! ## The squared distance and the candidate array -/

/-- The squared distance of s = (s0, s1, s2) and c = (c0, c1, c2) as the kernel nests it. -/
def sqd (s0 s1 s2 c0 c1 c2 : EReal) : EReal :=
  FloatOps.ofBits (F := Ideal) .f32 0xC0000000#32 * (s0 * c0 + s1 * c1 + s2 * c2) + (s0 * s0 + s1 * s1 + s2 * s2) + (c0 * c0 + c1 * c1 + c2 * c2)

/-- The candidate for a squared distance d and a cloud point's id w: the sentinel outside the radius, the id inside. -/
def pick (d : EReal) (w : BitVec 32) : BitVec 32 :=
  Scalar.select (FloatOps.cmpf (F := Ideal) .ogt d (FloatOps.ofBits (F := Ideal) .f32 0x3D23D70A#32)) 8192#32 w

/-- The candidate array of query points a0 : [8, 2048, 3] and cloud points a1 : [8, 8192, 3]. -/
def cand (a0 : S8x2048x3.Idx → EReal) (a1 : S8x8192x3.Idx → EReal) : S8x2048x8192.Idx → BitVec 32 := fun g =>
  pick (sqd (a0 (ix3 (g 0) (g 1) (0 : Fin 3))) (a0 (ix3 (g 0) (g 1) (1 : Fin 3))) (a0 (ix3 (g 0) (g 1) (2 : Fin 3)))
            (a1 (ix3 (g 0) (g 2) (0 : Fin 3))) (a1 (ix3 (g 0) (g 2) (1 : Fin 3))) (a1 (ix3 (g 0) (g 2) (2 : Fin 3))))
    (BitVec.ofNat 32 (g 2).val)

/-! ## One grid point's block -/

/-- The lane number plus the point's scalar offset, as 32-bit words, is the word of the column's number. -/
theorem column_word (q j : ℕ) :
    IntOp.addi (BitVec.ofNat 32 q) (Scalar.muli (BitVec.ofNat 32 j) 512#32) = BitVec.ofNat 32 (j * 512 + q) := by
  show BitVec.ofNat 32 q + BitVec.ofNat 32 j * BitVec.ofNat 32 512 = _
  rw [← BitVec.ofNat_mul, ← BitVec.ofNat_add, Nat.add_comm]

/-- What the body stores at (0, r, q) of its output block, from its two input blocks x0 (one batch of query points)
    and x1 (512 cloud points of that batch), at the grid point with second coordinate j. -/
theorem stored_apply (i : grid0.Coords) (x0 : Vec Ideal S1x2048x3 .f32) (x1 : Vec Ideal S1x512x3 .f32) (r : Fin 2048) (q : Fin 512) :
    k0_pay1 (k0_pay2 (F := Ideal) i x0 x1) (ix3 (0 : Fin 1) r q)
      = pick (sqd (x0 (ix3 (0 : Fin 1) r (0 : Fin 3))) (x0 (ix3 (0 : Fin 1) r (1 : Fin 3))) (x0 (ix3 (0 : Fin 1) r (2 : Fin 3)))
                  (x1 (ix3 (0 : Fin 1) q (0 : Fin 3))) (x1 (ix3 (0 : Fin 1) q (1 : Fin 3))) (x1 (ix3 (0 : Fin 1) q (2 : Fin 3))))
          (BitVec.ofNat 32 ((i 1).val * 512 + q.val)) := by
  unfold k0_pay1 k0_pay2
  dsimp only
  rw [shapeCast_ab_1ab_apply]
  simp only [select_apply, cmpf_apply, addf_apply, mulf_apply, broadcast_apply, addi, broadcastTo_a1_ab_apply, broadcastTo_1b_ab_apply]
  rw [column_apply 0 x0 _ _ r (0 : Fin 3) rfl, column_apply 1 x0 _ _ r (1 : Fin 3) rfl, column_apply 2 x0 _ _ r (2 : Fin 3) rfl,
    transposed_row_apply 0 x1 _ _ _ q (0 : Fin 3) rfl, transposed_row_apply 1 x1 _ _ _ q (1 : Fin 3) rfl,
    transposed_row_apply 2 x1 _ _ _ q (2 : Fin 3) rfl,
    iota_single_apply, column_word]
  rfl

end Cert.KernelIdeal.Cand

end
-- ==== Proof.KernelValue.lean ====
/- The idealized kernel's candidate array after the region: every grid point (b, j) writes back the block of batch b and
   columns 512 j .. 512 j + 511, which is that block of the one whole-array function `cand` of the two argument arrays;
   the 8 x 16 blocks tile the array, so the array ends as `cand` of the arguments. -/
import proofs.«169816_j37812892074552_1_alg».proof.Proof.KernelIdealFrame
import proofs.«169816_j37812892074552_1_alg».proof.Proof.Candidates

set_option maxRecDepth 16384

noncomputable section

namespace Cert.KernelIdeal.Cand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

theorem origin3 : (![0, 0, 0] : Fin 3 → Nat) = fun _ => 0 := funext fun a => by fin_cases a <;> rfl

/-- The three index maps over the grid: the query block is batch b whole, the cloud block and the output block are batch b
    and column block j, where (b, j) are the point's coordinates; b < 8 and j < 16. -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (2 : Fin 3) ∧ win0_1.index t (2 : Fin 3) = 0
    ∧ win0_2.index t (1 : Fin 3) = 0 ∧ win0_2.index t (0 : Fin 3) < 8 ∧ win0_2.index t (2 : Fin 3) < 16
    ∧ (grid0.coords t (1 : Fin 2)).val = win0_2.index t (2 : Fin 3) :=
  (by decide +kernel : ∀ t : Fin grid0.N, _)

/-- Every (batch, column block) is some point's output block. -/
theorem index_onto : ∀ (b : Fin 8) (j : Fin 16), ∃ t : Fin cfg0.N, win0_2.index t = ![b.val, 0, j.val] :=
  (by decide +kernel : ∀ (b : Fin 8) (j : Fin 16), ∃ t : Fin grid0.N, win0_2.index t = ![b.val, 0, j.val])

/-- A block of stored values is a block of `cand`: if the query block is batch b of a0, the cloud block is rows
    512 j .. of batch b of a1, and g is the array index under the block index y, the stored value at y is `cand` at g. -/
theorem stored_eq_cand (i : grid0.Coords) (x0 : Vec Ideal S1x2048x3 .f32) (x1 : Vec Ideal S1x512x3 .f32)
    (a0 : S8x2048x3.Idx → EReal) (a1 : S8x8192x3.Idx → EReal) (y : S1x2048x512.Idx) (g : S8x2048x8192.Idx)
    (h0 : ∀ k : Fin 3, x0 (ix3 (0 : Fin 1) (y 1) k) = a0 (ix3 (g 0) (g 1) k))
    (h1 : ∀ k : Fin 3, x1 (ix3 (0 : Fin 1) (y 2) k) = a1 (ix3 (g 0) (g 2) k))
    (hg : (g 2).val = (i 1).val * 512 + (y 2).val) :
    k0_pay1 (k0_pay2 (F := Ideal) i x0 x1) y = cand a0 a1 g := by
  obtain ⟨u, r, q, rfl⟩ : ∃ (u : Fin 1) (r : Fin 2048) (q : Fin 512), y = ix3 u r q := ⟨y 0, y 1, y 2, eq_ix3 y⟩
  obtain rfl : u = 0 := Subsingleton.elim _ _
  rw [stored_apply]
  unfold cand
  rw [← h0 0, ← h0 1, ← h0 2, ← h1 0, ← h1 1, ← h1 2, hg]

/-- WHAT POINT t WRITES BACK is block t of `cand` of the argument arrays as the region finds them. -/
theorem flushed_eq (c : Dev nD) (t : Fin cfg0.N) :
    (dats m 0 c).flushed 2 t = ((cfg0.win 2).blk t).view.read (Elt Ideal) (cand (V m c main_arg0) (V m c main_arg1)) := by
  show (cfg0.win 2).cut (grid0.coords t) ((dats m 0 c).after 2 t) = _
  rw [after0_2]
  unfold out0_2
  rw [View.canon_unit_zero origin3]
  simp only [View.ld_unit_zero (S := S1x2048x3) origin3, View.ld_unit_zero (S := S1x512x3) origin3]
  obtain ⟨e00, e01, e02, e10, e11, e12, e21, b8, j16, ej⟩ := index_facts t
  funext y
  show k0_pay1 (k0_pay2 (F := Ideal) (grid0.coords t) (iblk m c 0 t) (iblk m c 1 t)) y
    = cand (V m c main_arg0) (V m c main_arg1) (((cfg0.win 2).blk t).view.emb y)
  refine stored_eq_cand (grid0.coords t) (iblk m c 0 t) (iblk m c 1 t) (V m c main_arg0) (V m c main_arg1) y (((cfg0.win 2).blk t).view.emb y) ?_ ?_ ?_
  · intro k
    show V m c main_arg0 (((cfg0.win 0).blk t).view.emb (ix3 (0 : Fin 1) (y 1) k)) = _
    refine congrArg (V m c main_arg0) (funext fun a => Fin.ext ?_)
    match a with
    | ⟨0, _⟩ => show win0_0.index t (0 : Fin 3) * 1 + 1 * 0 = win0_2.index t (0 : Fin 3) * 1 + 1 * (y 0).val; have hy : (y 0).val < 1 := (y 0).isLt; omega
    | ⟨1, _⟩ => show win0_0.index t (1 : Fin 3) * 2048 + 1 * (y 1).val = win0_2.index t (1 : Fin 3) * 2048 + 1 * (y 1).val; omega
    | ⟨2, _⟩ => show win0_0.index t (2 : Fin 3) * 3 + 1 * k.val = k.val; omega
  · intro k
    show V m c main_arg1 (((cfg0.win 1).blk t).view.emb (ix3 (0 : Fin 1) (y 2) k)) = _
    refine congrArg (V m c main_arg1) (funext fun a => Fin.ext ?_)
    match a with
    | ⟨0, _⟩ => show win0_1.index t (0 : Fin 3) * 1 + 1 * 0 = win0_2.index t (0 : Fin 3) * 1 + 1 * (y 0).val; have hy : (y 0).val < 1 := (y 0).isLt; omega
    | ⟨1, _⟩ => show win0_1.index t (1 : Fin 3) * 512 + 1 * (y 2).val = win0_2.index t (2 : Fin 3) * 512 + 1 * (y 2).val; omega
    | ⟨2, _⟩ => show win0_1.index t (2 : Fin 3) * 3 + 1 * k.val = k.val; omega
  · show win0_2.index t (2 : Fin 3) * 512 + 1 * (y 2).val = (grid0.coords t (1 : Fin 2)).val * 512 + (y 2).val
    omega

/-- An index of the candidate array is in point t's block iff each coordinate is in the block's range on its axis. -/
theorem mem_block (t : Fin cfg0.N) (g : S8x2048x8192.Idx) :
    g ∈ ((cfg0.win 2).blk t).view.set ↔ ∀ a : Fin 3, win0_2.index t a * S1x2048x512.size a ≤ (g a).val ∧ (g a).val < win0_2.index t a * S1x2048x512.size a + S1x2048x512.size a := by
  show g ∈ ((View.whole main_v0).slice (win0_2.rect t)).set ↔ _
  rw [View.set_slice_whole, Rect.mem_set_unit]
  exact Iff.rfl

/-- The blocks tile the array: entry (b, r, n) lies in the block of the point with coordinates (b, n / 512). -/
theorem covered (g : S8x2048x8192.Idx) : ∃ t : Fin cfg0.N, (cfg0.win 2).flush t = true ∧ g ∈ ((cfg0.win 2).blk t).view.set := by
  have h0 : (g 0).val < 8 := (g 0).isLt
  have h1 : (g 1).val < 2048 := (g 1).isLt
  have h2 : (g 2).val < 8192 := (g 2).isLt
  obtain ⟨t, ht⟩ := index_onto ⟨(g 0).val, h0⟩ ⟨(g 2).val / 512, by omega⟩
  have q0 : win0_2.index t (0 : Fin 3) = (g 0).val := congrFun ht 0
  have q1 : win0_2.index t (1 : Fin 3) = 0 := congrFun ht 1
  have q2 : win0_2.index t (2 : Fin 3) = (g 2).val / 512 := congrFun ht 2
  refine ⟨t, flush0_2 t, ?_⟩
  rw [mem_block]
  intro a
  match a with
  | ⟨0, _⟩ => show win0_2.index t (0 : Fin 3) * 1 ≤ (g 0).val ∧ (g 0).val < win0_2.index t (0 : Fin 3) * 1 + 1; omega
  | ⟨1, _⟩ => show win0_2.index t (1 : Fin 3) * 2048 ≤ (g 1).val ∧ (g 1).val < win0_2.index t (1 : Fin 3) * 2048 + 2048; omega
  | ⟨2, _⟩ => show win0_2.index t (2 : Fin 3) * 512 ≤ (g 2).val ∧ (g 2).val < win0_2.index t (2 : Fin 3) * 512 + 512; omega

/-- THE CANDIDATE ARRAY after the region is `cand` of the argument arrays. -/
theorem final (c : Dev nD) :
    (dats m 0 c).arrAt 2 cfg0.N = cand (m ((c : Thread nD τ).loc main_arg0)) (m ((c : Thread nD τ).loc main_arg1)) :=
  (dats m 0 c).arrAt_eq_of_cover 2 (cand (V m c main_arg0) (V m c main_arg1)) (fun t _ => flushed_eq m c t) covered

end Cert.KernelIdeal.Cand

end
-- ==== Proof.ReferenceValue.lean ====
/- The reference's side: its result is the shared tail (sort each row, keep the first 64, replace a kept sentinel by the
   row's first entry) of its candidate array, and its candidate array is `cand` of the arguments: at (b, r, n) its squared
   distance is -2 (sum_k s_k c_k) + (0 + sum_k s_k^2) + (0 + sum_k c_k^2), which is the kernel's left-nested form because a
   sum over three terms is ((t0 + t1) + t2) and zero is neutral for the addition of extended reals; the id is the column's
   number read through two broadcasts of the iota. -/
import proofs.«169816_j37812892074552_1_alg».proof.Proof.Gen.ReferenceIdeal.Read
import proofs.«169816_j37812892074552_1_alg».proof.Proof.Candidates
import Idealize.ShloMosaic.PureOps.Ideal.Laws

noncomputable section

namespace Cert.ReferenceIdeal.RefValue

open Idealize.ShloMosaic Idealize.ShloMosaic.ValueIdx Idealize.ShloMosaic.StableHlo
open Cert.ReferenceIdeal Cert.ReferenceIdeal.Gen Cert.ReferenceIdeal.Read
open Cert.KernelIdeal.Cand (cand pick sqd)

/-- What both programs do with the candidate array: sort each row, keep its first 64 entries, and replace every kept
    sentinel 8192 by the row's first kept entry. -/
def tail (x : (⟨S8x2048x8192, .i32⟩ : BufTy).Contents (Elt Ideal)) : (⟨S8x2048x64, .i32⟩ : BufTy).Contents (Elt Ideal) :=
  select (cmpi .eq (extractStridedSlice S8x2048x64 ![0, 0, 0] (Host.sort S8x2048x8192 2 comparator_i32_d2 x) slices_S8x2048x8192_S8x2048x64_0_0_0)
      (broadcastInDim S8x2048x64 ![] bcast_S_S8x2048x64 (constantI S_ 32 8192#32)))
    (broadcastInDim S8x2048x64 ![0, 1, 2] bcast_S8x2048x1_S8x2048x64_0_1_2
      (extractStridedSlice S8x2048x1 ![0, 0, 0]
        (extractStridedSlice S8x2048x64 ![0, 0, 0] (Host.sort S8x2048x8192 2 comparator_i32_d2 x) slices_S8x2048x8192_S8x2048x64_0_0_0)
        slices_S8x2048x64_S8x2048x1_0_0_0))
    (extractStridedSlice S8x2048x64 ![0, 0, 0] (Host.sort S8x2048x8192 2 comparator_i32_d2 x) slices_S8x2048x8192_S8x2048x64_0_0_0)

/-- The reference's result is the tail of its candidate stage: the stages after the candidates, composed. -/
theorem result_eq_tail (x0 : (⟨S8x2048x3, .f32⟩ : BufTy).Contents (Elt Ideal)) (x1 : (⟨S8x8192x3, .f32⟩ : BufTy).Contents (Elt Ideal)) :
    val_main_v23 (F := Ideal) x0 x1 = tail (val_main_v17 (F := Ideal) x0 x1) := by
  unfold val_main_v23 val_main_v22 val_main_call2_v0 val_main_v21 val_main_c_3 val_main_v20 val_main_v19 val_main_v18 tail
  rfl

/-! ## The candidate stage, entry by entry -/

theorem lhs_index (g : S8x2048x8192.Idx) (k : Fin 3) : lidx_main_v0 g k = ix3 (g 0) (g 1) k :=
  funext fun a => by match a with | ⟨0, _⟩ => rfl | ⟨1, _⟩ => rfl | ⟨2, _⟩ => rfl
theorem rhs_index (g : S8x2048x8192.Idx) (k : Fin 3) : ridx_main_v0 g k = ix3 (g 0) (g 2) k :=
  funext fun a => by match a with | ⟨0, _⟩ => rfl | ⟨1, _⟩ => rfl | ⟨2, _⟩ => rfl
theorem query_index (g : S8x2048x8192.Idx) (k : Fin 3) : idx_main_v4 (idx_main_v5 (idx_main_v6 g)) k = ix3 (g 0) (g 1) k :=
  funext fun a => by match a with | ⟨0, _⟩ => rfl | ⟨1, _⟩ => rfl | ⟨2, _⟩ => rfl
theorem cloud_index (g : S8x2048x8192.Idx) (k : Fin 3) : idx_main_v9 (idx_main_v10 (idx_main_v11 g)) k = ix3 (g 0) (g 2) k :=
  funext fun a => by match a with | ⟨0, _⟩ => rfl | ⟨1, _⟩ => rfl | ⟨2, _⟩ => rfl

/-- The reference's candidate stage is `cand` of its arguments. -/
theorem candidates_eq (x0 : (⟨S8x2048x3, .f32⟩ : BufTy).Contents (Elt Ideal)) (x1 : (⟨S8x8192x3, .f32⟩ : BufTy).Contents (Elt Ideal)) :
    val_main_v17 (F := Ideal) x0 x1 = cand x0 x1 := by
  funext g
  rw [val_main_v17_apply, val_main_v14_apply, val_main_v12_apply, val_main_v7_apply, val_main_v2_apply, val_main_v1_apply,
    val_main_cst_apply, val_main_v0_apply, val_main_v6_apply, val_main_v5_apply, val_main_v4_apply, val_main_v11_apply,
    val_main_v10_apply, val_main_v9_apply, val_main_v13_apply, val_main_cst_2_apply, val_main_call0_v0_apply, val_main_c_apply,
    val_main_call0_v1_apply, val_main_v16_apply, val_main_v15_apply, val_main_cst_0_apply, val_main_cst_1_apply]
  simp only [val_main_v3_apply, val_main_v8_apply, Fin.sum_univ_three, lhs_index, rhs_index, query_index, cloud_index,
    Ideal.ofBits_def, Ideal.ofBits_zero_f32, zero_add, Ideal.mulf_def, Ideal.addf_def]
  rfl

end Cert.ReferenceIdeal.RefValue

end
-- ==== Proof.KernelResult.lean ====
/- The idealized kernel's result: the lines after the region sort the candidate array, keep 64 entries of each row and
   replace kept sentinels, which is the shared tail applied to the region's output array, and that array is `cand` of
   the arguments. -/
import proofs.«169816_j37812892074552_1_alg».proof.Proof.KernelValue
import proofs.«169816_j37812892074552_1_alg».proof.Proof.ReferenceValue
import Idealize.ShloMosaic.Lib.StableHlo.Run

noncomputable section

namespace Cert.KernelIdeal.Cand

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.KernelIdeal.GenP
open Cert.ReferenceIdeal.RefValue (tail)

variable (m : (ℓ : Loc nD τ sig) → Buf (Elt Ideal) ℓ) (ρ : Dev nD → PrngReg)

/-- What the region leaves in the candidate array's buffer, as the lines after it find it. -/
theorem exit_candidates (c : Dev nD) :
    (Pipeline.withArrays (cfgs 0).spec c (V0 m c) (fun w => (dats m 0 c).arrAt w (cfgs 0).N) (Proc.devRef .tc main_v0)
      : (⟨Cert.ReferenceIdeal.S8x2048x8192, .i32⟩ : BufTy).Contents (Elt Ideal))
      = cand (m ((c : Thread nD τ).loc main_arg0)) (m ((c : Thread nD τ).loc main_arg1)) :=
  (Pipeline.withArrays_arr spec0 launch0.win.arr_inj c (V0 m c) (fun w => (dats m 0 c).arrAt w cfg0.N) 2).trans (final m c)

/-- The result buffer after the lines that follow the region is the tail of `cand` of the arguments. -/
theorem result_eq (c : Dev nD) :
    Pipeline.afterTail₀ cfgs (dats m) 0 (V0 m) [hostOps1, hostOps1_1, hostOps1_2] c main_v6
      = tail (cand (m ((c : Thread nD τ).loc main_arg0)) (m ((c : Thread nD τ).loc main_arg1))) := by
  unfold Pipeline.afterTail₀
  simp only [hostOps1, hostOps1_1, hostOps1_2, List.flatten_cons, List.flatten_nil, List.append_nil, List.cons_append, List.nil_append]
  after_results
  exact congrArg tail (exit_candidates m c)

/-- The idealized kernel's run with its result named: the tail of `cand` of the arguments, the arguments unchanged. -/
theorem run : θ_run defs (onTc (τ := τ) (main (F := Ideal))) ⟨m, fun _ => 0, ρ⟩ fun r => ∀ c : Dev nD,
      r.2.mem ((c.tc : Thread nD τ).loc main_v6) = tail (cand (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 rfl (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Cand

end
-- ==== Proof.lean ====
/- Radius neighbours by a full sort: for every query point s of a batch, the ids n of the cloud points c with
   |s - c|^2 <= 0.04 (ids outside the radius replaced by the sentinel 8192), sorted, the first 64 kept, and a kept
   sentinel replaced by the row's first entry. The kernel computes the candidate array id-or-sentinel block by block
   (a batch and 512 consecutive cloud points per grid point) from -2 (s0 c0 + s1 c1 + s2 c2) + (s0^2 + s1^2 + s2^2)
   + (c0^2 + c1^2 + c2^2); the reference from -2 (sum_k s_k c_k) + (0 + sum_k s_k^2) + (0 + sum_k c_k^2). Over the
   extended reals the two squared distances are one number (a sum over three terms is the left-nested sum, zero is
   neutral), so the candidate arrays agree entry by entry, and both programs apply the same sort, slices, comparison
   and selection to them. -/
import proofs.«169816_j37812892074552_1_alg».proof.Defs
import proofs.«169816_j37812892074552_1_alg».proof.Proof.Gen.Kernel
import proofs.«169816_j37812892074552_1_alg».proof.Proof.Gen.Kernel.Skeleton
import proofs.«169816_j37812892074552_1_alg».proof.Proof.Gen.Kernel.Launch
import proofs.«169816_j37812892074552_1_alg».proof.Proof.Gen.Kernel.Points
import proofs.«169816_j37812892074552_1_alg».proof.Proof.KernelFrame
import proofs.«169816_j37812892074552_1_alg».proof.Proof.Gen.KernelIdeal
import proofs.«169816_j37812892074552_1_alg».proof.Proof.Gen.KernelIdeal.Skeleton
import proofs.«169816_j37812892074552_1_alg».proof.Proof.Gen.KernelIdeal.Launch
import proofs.«169816_j37812892074552_1_alg».proof.Proof.Gen.KernelIdeal.Points
import proofs.«169816_j37812892074552_1_alg».proof.Proof.KernelIdealFrame
import proofs.«169816_j37812892074552_1_alg».proof.Proof.Gen.ReferenceIdeal
import proofs.«169816_j37812892074552_1_alg».proof.Proof.Gen.ReferenceIdeal.Run
import proofs.«169816_j37812892074552_1_alg».proof.Proof.Gen.ReferenceIdeal.Read
import proofs.«169816_j37812892074552_1_alg».proof.Proof.Gen.Pre_finite_inputs
import proofs.«169816_j37812892074552_1_alg».proof.Proof.KernelResult
import proofs.«169816_j37812892074552_1_alg».proof.Proof.ReferenceValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the tail (sort, keep 64, replace sentinels) of
    the one candidate array `cand` of the arguments: the kernel by its blocks tiling that array, the reference by its
    stages read entry by entry. -/
theorem algebraic : Cert.algebraic_KernelIdeal_ReferenceIdeal := by
  intro m ρ m' ρ' _ hagree
  refine ⟨fun c => Cert.ReferenceIdeal.RefValue.tail (Cert.KernelIdeal.Cand.cand
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Cand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq_tail,
    Cert.ReferenceIdeal.RefValue.candidates_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
